-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S1x1 : Shape := ⟨2, ![1, 1]⟩
abbrev S50000x1 : Shape := ⟨2, ![50000, 1]⟩
abbrev S2000x1 : Shape := ⟨2, ![2000, 1]⟩
abbrev S2000 : Shape := ⟨1, ![2000]⟩

abbrev nBuf : Space → Nat
  | .hbm => 54
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x128, .bf16⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S128x128, .bf16⟩
  | .hbm, ⟨48, _⟩ => ⟨S128x128, .bf16⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x1, .f32⟩
  | .hbm, ⟨53, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S2000x1, .f32⟩
  | .local _ .vmem, ⟨21, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x1_S1x128 : S128x1.ShapeCasts S1x128
  shapeCasts_S1_S1x1 : S1.ShapeCasts S1x1
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S50000x1.size a
  hwx1_8 : ∀ i : grid1.Coords, EltTy.bits .f32 = 32 ∨ (Rect.block (s := S50000x1) S2000x1.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x1, .f32⟩
  | .hbm, ⟨73, _⟩ => ⟨S1x1, .f32⟩
  | .hbm, ⟨74, _⟩ => ⟨S50000x1, .f32⟩
  | .hbm, ⟨75, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.Spec.lean ====
/-
  Two rounds of graph-isomorphism message passing followed by a linear read-out, written once as functions on
  arrays of extended reals, index by index.

  A round takes the node features `h` (one row per node) and the neighbour sums `a` of the same shape, and returns
  `max (max ((h + a) · W1 + b1) 0 · W2 + b2) 0`: two matrix products, each with a bias row added to every row and
  clipped below at zero.  The read-out contracts each node's 128 features with one weight per feature and adds a
  single offset.  The neighbour sums are a function `A` of the features that this file leaves abstract: both programs
  compute it by the same gather and scatter-add, and nothing here depends on what it is.

  Every function acts on each row by itself; `mlp_rows` and `readout_rows` say so, and are what lets a result
  computed on a block of rows be read as the block of the result computed on all rows.
-/
import proofs.«106182_j37744172597911_1_alg».proof.Proof.LibPlainDot

noncomputable section

namespace Cert.Gin

open Idealize.ShloMosaic Idealize.ShloMosaic.ValueIdx Cert.PlainDot

/-- An `r`-by-`c` array of extended reals. -/
abbrev Mat (r c : Nat) : Type := (⟨2, ![r, c]⟩ : Shape).Idx → EReal
/-- A length-`n` array of extended reals. -/
abbrev Arr (n : Nat) : Type := (⟨1, ![n]⟩ : Shape).Idx → EReal

variable {M : Nat}

/-- A length-`n` array as the single row of a one-row array. -/
def asRow {n : Nat} (b : Arr n) : Mat 1 n := fun j => b (ix1 (j 1))

/-- An `n`-by-1 column as the single row of a one-row array: entry `(0, k)` is the column's entry `(k, 0)`. -/
def colAsRow {n : Nat} (w : Mat n 1) : Mat 1 n := fun j => w (ix2 (j 1) (0 : Fin 1))

/-- A one-element array as a one-by-one array. -/
def asCell (b : Arr 1) : Mat 1 1 := fun _ => b (ix1 (0 : Fin 1))

/-- The dense part of one round: `max (max ((h + a) · W1 + b1) 0 · W2 + b2) 0`. -/
def mlp (h a : Mat M 128) (W1 : Mat 128 128) (b1 : Mat 1 128) (W2 : Mat 128 128) (b2 : Mat 1 128) : Mat M 128 :=
  affineRelu (affineRelu (fun j => h j + a j) W1 b1) W2 b2

/-- The read-out: row `r` gives `∑ k, H (r, k) * wr (0, k) + br (0, 0)`. -/
def readout (H : Mat M 128) (wr : Mat 1 128) (br : Mat 1 1) : Mat M 1 :=
  fun j => (∑ k : Fin 128, H (ix2 (j 0) k) * wr (ix2 (0 : Fin 1) k)) + br (ix2 (0 : Fin 1) (0 : Fin 1))

/-- The rows of `h` that `e` picks, as an array of their own. -/
def pickRows {M' c : Nat} (e : Fin M' → Fin M) (h : Mat M c) : Mat M' c :=
  fun j => h (ix2 (e ⟨(j 0).val, (j 0).isLt⟩) ⟨(j 1).val, (j 1).isLt⟩)

/-- The dense part of a round, computed on rows picked out of larger arrays by `e`, is the picked rows of the round
    computed on the larger arrays: an entry of the result depends on its own row of `h` and `a` only. -/
theorem mlp_rows {M' : Nat} (e : Fin M' → Fin M) (h a : Mat M 128) (W1 : Mat 128 128) (b1 : Mat 1 128)
    (W2 : Mat 128 128) (b2 : Mat 1 128) (p : Fin M') (q : Fin 128) :
    mlp (pickRows e h) (pickRows e a) W1 b1 W2 b2 (ix2 p q)
      = mlp h a W1 b1 W2 b2 (ix2 (e p) q) := rfl

/-- The same for the read-out. -/
theorem readout_rows {M' : Nat} (e : Fin M' → Fin M) (H : Mat M 128) (wr : Mat 1 128) (br : Mat 1 1)
    (p : Fin M') (q : Fin 1) :
    readout (pickRows e H) wr br (ix2 p q) = readout H wr br (ix2 (e p) q) := rfl

/-- The whole network on 50000 nodes: two rounds, the second on the first's output, then the read-out.
    `A` gives the neighbour sums of a feature array. -/
def gin (A : Mat 50000 128 → Mat 50000 128) (x : Mat 50000 128)
    (W10 : Mat 128 128) (b10 : Arr 128) (W20 : Mat 128 128) (b20 : Arr 128)
    (W11 : Mat 128 128) (b11 : Arr 128) (W21 : Mat 128 128) (b21 : Arr 128)
    (Wr : Mat 128 1) (br : Arr 1) : Mat 50000 1 :=
  readout (mlp (mlp x (A x) W10 (asRow b10) W20 (asRow b20)) (A (mlp x (A x) W10 (asRow b10) W20 (asRow b20)))
    W11 (asRow b11) W21 (asRow b21)) (colAsRow Wr) (asCell br)

end Cert.Gin

end
-- ==== Proof.KernelBody.lean ====
/-
  What each kernel body computes from the blocks it loads, at the extended reals.

  The first kernel's store is one round's dense part of its two 2000-row blocks: the narrowing to a shorter float
  format before each matrix product changes no value, and each product into a zero accumulator, with a bias row added
  and the result clipped below at zero, is `affineRelu`.  The second kernel computes the same array and then, per row,
  the sum over the 128 lanes of its product with a weight row, plus one offset: the read-out.
-/
import proofs.«106182_j37744172597911_1_alg».proof.Proof.Gen.KernelIdeal.Skeleton
import proofs.«106182_j37744172597911_1_alg».proof.Proof.Spec
import Idealize.ShloMosaic.Lib.Pipeline.Value
import Idealize.ShloMosaic.Lib.ValueLayout
import Idealize.ShloMosaic.PureOps.Ideal.Laws

noncomputable section

namespace Cert.KernelGin

open Cert.KernelIdeal Cert.KernelIdeal.Gen Idealize.ShloMosaic Idealize.ShloMosaic.ValueIdx Cert.PlainDot Cert.Gin

/-- The kernels' matrix products are plain 2000×128 by 128×128 products. -/
theorem dot_eq : dot_S2000x128_S128x128_S2000x128_1_0_0_1_n_n = DotDims.plain 2000 128 128 := rfl

/-- The first kernel's stored value is the dense part of a round on its blocks. -/
theorem body0_eq (x0 x1 : FVec Ideal S2000x128 .f32) (x2 : FVec Ideal S128x128 .bf16) (x3 : FVec Ideal S1x128 .f32)
    (x4 : FVec Ideal S128x128 .bf16) (x5 : FVec Ideal S1x128 .f32) :
    k0_pay1 (F := Ideal) x0 x1 x2 x3 x4 x5 = mlp x0 x1 x2 x3 x4 x5 := by
  unfold k0_pay1
  simp only [shapeCast_self]
  rw [dot_eq]
  rw [matmul_add_row_max_eq, matmul_add_row_max_eq]
  rfl

/-- The lane sum's source index over row `p` with lane `k` inserted. -/
theorem lift_row (p : Fin 2000) (k : Fin 128) :
    reduces_S2000x128_S2000.lift (ix1 p) k = ix2 p k :=
  funext fun a => Fin.ext (by
    match a with
    | ⟨0, _⟩ => rfl
    | ⟨1, _⟩ => rfl)

/-- A sum over the 128 lanes of a 2000×128 array, read at row `p`. -/
theorem laneSum_apply (src : FVec Ideal S2000x128 .f32) (hφ : FKind.Formats FTy.f32)
    (hacc : (0x00000000#32 : BitVec FTy.f32.bits) = FKind.add.neutral FTy.f32 hφ) (p : Fin 2000) :
    multiReduction .add [1] S2000 src 0x00000000#32 reduces_S2000x128_S2000 hφ hacc (ix1 p) = ∑ k : Fin 128, src (ix2 p k) :=
  (Ideal.multiReduction_add_single src 0x00000000#32 reduces_S2000x128_S2000 hφ hacc (ix1 p)).trans
    (Finset.sum_congr rfl fun k _ => congrArg src (lift_row p k))

/-- A length-2000 array recast as a 2000×1 column reads, at `(p, q)`, its entry `p`. -/
theorem column_apply (v : FVec Ideal S2000 .f32) (p : Fin 2000) (q : Fin 1) :
    shapeCast S2000x1 v shapeCasts_S2000_S2000x1 (ix2 p q) = v (ix1 p) :=
  shapeCast_apply v shapeCasts_S2000_S2000x1 (ix2 p q) (ix1 p) (by
    rw [Shape.rowMajor_val_one, Shape.rowMajor_val_two]
    show p.val = p.val * 1 + q.val
    have := q.isLt
    omega)

/-- The second kernel's stored value is the read-out of the dense part of a round on its blocks. -/
theorem body1_eq (x0 x1 : FVec Ideal S2000x128 .f32) (x2 : FVec Ideal S128x128 .bf16) (x3 : FVec Ideal S1x128 .f32)
    (x4 : FVec Ideal S128x128 .bf16) (x5 : FVec Ideal S1x128 .f32) (x6 : FVec Ideal S1x128 .f32) (x7 : FVec Ideal S1x1 .f32) :
    k1_pay1 (F := Ideal) x0 x1 x2 x3 x4 x5 x6 x7 = readout (mlp x0 x1 x2 x3 x4 x5) x6 x7 := by
  unfold k1_pay1
  simp only [shapeCast_self]
  rw [dot_eq, matmul_add_row_max_eq, matmul_add_row_max_eq]
  funext j
  obtain ⟨p, q, rfl⟩ : ∃ (p : Fin 2000) (q : Fin 1), j = ix2 p q := ⟨j 0, j 1, eq_ix2 j⟩
  have hq : q = 0 := Subsingleton.elim _ _
  subst hq
  rw [addf_apply, column_apply]
  refine (congrArg₂ (· + ·) (laneSum_apply _ _ _ p) (broadcastTo_1b_ab_apply x7 broadcasts_S1x1_S2000x1 p (0 : Fin 1))).trans ?_
  refine congrArg (· + x7 (ix2 (0 : Fin 1) (0 : Fin 1))) (Finset.sum_congr rfl fun k _ => ?_)
  rw [mulf_apply, broadcastTo_1b_ab_apply]
  rfl

end Cert.KernelGin

end
-- ==== Proof.KernelRegion0.lean ====
/-
  The first region's output array after the run: one round's dense part of the arrays the region finds.

  Grid point `t` loads rows `2000 t … 2000 t + 1999` of the feature array and of the neighbour sums, and the whole of
  each weight and bias array; it writes the same rows of the output.  An entry of a round's dense part depends only on
  its own row of the two row-blocked operands, so what point `t` writes back is block `t` of the round computed on
  the whole arrays; the 25 blocks tile the 50000 rows.
-/
import proofs.«106182_j37744172597911_1_alg».proof.Proof.Gen.KernelIdeal.Frame
import proofs.«106182_j37744172597911_1_alg».proof.Proof.KernelBody
import Idealize.ShloMosaic.Lib.Pipeline.Value

set_option maxRecDepth 16384

noncomputable section

namespace Cert.KernelGin

open Cert.KernelIdeal Cert.KernelIdeal.Gen Idealize.ShloMosaic Idealize.ShloMosaic.TcCoe Idealize.SL.Sem
open Idealize.ShloMosaic.ValueIdx Cert.PlainDot Cert.Gin
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of the 50000-row arrays that row `p` of the block of grid point `t` is. -/
def rowOf0 (t : Fin cfg0.N) (p : Fin 2000) : Fin 50000 :=
  ⟨t.val * 2000 + p.val, by have h : cfg0.N = 25 := N_0; have := t.isLt; have := p.isLt; omega⟩

/-- The printed index maps over the grid: the row-blocked windows (0, 1 and the output 6) sit at block `(t, 0)`,
    the weight and bias windows at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What the first region leaves in its output array, from the arrays it finds. -/
def G0 (c : Dev nD) : Mat 50000 128 :=
  mlp (V c main_arg0) (V c main_v13) (V c main_v14) (V c main_v16) (V c main_v15) (V c main_v17)

theorem mlp_congr {M : Nat} {h h' a a' : Mat M 128} {W1 W1' W2 W2' : Mat 128 128} {b1 b1' b2 b2' : Mat 1 128}
    (e0 : h = h') (e1 : a = a') (e2 : W1 = W1') (e3 : b1 = b1') (e4 : W2 = W2') (e5 : b2 = b2') :
    mlp h a W1 b1 W2 b2 = mlp h' a' W1' b1' W2' b2' := by subst e0 e1 e2 e3 e4 e5; rfl

/-- WHAT POINT `t` WRITES BACK is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  refine (congrArg ((win0 6).cut (grid0.coords t)) (body0_eq (iblk0 V c 0 t) (iblk0 V c 1 t) (iblk0 V c 2 t) (iblk0 V c 3 t) (iblk0 V c 4 t) (iblk0 V c 5 t))).trans ?_
  obtain ⟨e00, e01, e10, e11, e20, e21, e30, e31, e40, e41, e50, e51, e60, e61⟩ := idx_facts0 t
  have h0 : (iblk0 V c 0 t : Mat 2000 128) = pickRows (rowOf0 t) (V c main_arg0) := by
    funext y
    show V c main_arg0 (((cfg0.win 0).blk t).view.emb y) = V c main_arg0 (ix2 (rowOf0 t ⟨(y 0).val, (y 0).isLt⟩) ⟨(y 1).val, (y 1).isLt⟩)
    refine congrArg _ (funext fun a => Fin.ext ?_)
    match a with
    | ⟨0, _⟩ => show win0_0.index t (0 : Fin 2) * 2000 + 1 * (y 0).val = t.val * 2000 + (y 0).val; omega
    | ⟨1, _⟩ => show win0_0.index t (1 : Fin 2) * 128 + 1 * (y 1).val = (y 1).val; omega
  have h1 : (iblk0 V c 1 t : Mat 2000 128) = pickRows (rowOf0 t) (V c main_v13) := by
    funext y
    show V c main_v13 (((cfg0.win 1).blk t).view.emb y) = V c main_v13 (ix2 (rowOf0 t ⟨(y 0).val, (y 0).isLt⟩) ⟨(y 1).val, (y 1).isLt⟩)
    refine congrArg _ (funext fun a => Fin.ext ?_)
    match a with
    | ⟨0, _⟩ => show win0_1.index t (0 : Fin 2) * 2000 + 1 * (y 0).val = t.val * 2000 + (y 0).val; omega
    | ⟨1, _⟩ => show win0_1.index t (1 : Fin 2) * 128 + 1 * (y 1).val = (y 1).val; omega
  have h2 : (iblk0 V c 2 t : Mat 128 128) = V c main_v14 := by
    funext y
    show V c main_v14 (((cfg0.win 2).blk t).view.emb y) = V c main_v14 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : (iblk0 V c 3 t : Mat 1 128) = V c main_v16 := by
    funext y
    show V c main_v16 (((cfg0.win 3).blk t).view.emb y) = V c main_v16 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have h4 : (iblk0 V c 4 t : Mat 128 128) = V c main_v15 := by
    funext y
    show V c main_v15 (((cfg0.win 4).blk t).view.emb y) = V c main_v15 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have h5 : (iblk0 V c 5 t : Mat 1 128) = V c main_v17 := by
    funext y
    show V c main_v17 (((cfg0.win 5).blk t).view.emb y) = V c main_v17 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  refine (congrArg ((win0 6).cut (grid0.coords t)) (mlp_congr h0 h1 h2 h3 h4 h5)).trans ?_
  funext j
  have hp : (j 0).val < 2000 := Nat.lt_of_lt_of_le (j 0).isLt ((win0 6).xsize_le (grid0.coords t) 0)
  have hq : (j 1).val < 128 := Nat.lt_of_lt_of_le (j 1).isLt ((win0 6).xsize_le (grid0.coords t) 1)
  have hj : (win0 6).xinj (grid0.coords t) j = ix2 (⟨(j 0).val, hp⟩ : Fin 2000) (⟨(j 1).val, hq⟩ : Fin 128) :=
    funext fun a => Fin.ext (by
      match a with
      | ⟨0, _⟩ => rfl
      | ⟨1, _⟩ => rfl)
  have hemb : ((cfg0.win 6).blk t).view.emb j = ix2 (rowOf0 t ⟨(j 0).val, hp⟩) (⟨(j 1).val, hq⟩ : Fin 128) :=
    funext fun a => Fin.ext (by
      match a with
      | ⟨0, _⟩ => show win0_6.index t (0 : Fin 2) * 2000 + 1 * (j 0).val = t.val * 2000 + (j 0).val; omega
      | ⟨1, _⟩ => show win0_6.index t (1 : Fin 2) * 128 + 1 * (j 1).val = (j 1).val; omega)
  show mlp (pickRows (rowOf0 t) (V c main_arg0)) (pickRows (rowOf0 t) (V c main_v13)) (V c main_v14) (V c main_v16) (V c main_v15) (V c main_v17)
      ((win0 6).xinj (grid0.coords t) j) = G0 V c (((cfg0.win 6).blk t).view.emb j)
  rw [hj, hemb]
  exact mlp_rows (rowOf0 t) _ _ _ _ _ _ _ _

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v18).slice (win0_6.rect t)).set ↔ _
  rw [View.set_slice_whole, Rect.mem_set_unit]
  exact Iff.rfl

/-- Every index of the output array is in the block of the point its row falls in. -/
theorem cover0 (i : S50000x128.Idx) : ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  let t : Fin cfg0.N := ⟨(i 0).val / 2000, by omega⟩
  obtain ⟨e00, e01, e10, e11, e20, e21, e30, e31, e40, e41, e50, e51, e60, e61⟩ := idx_facts0 t
  have ht : t.val = (i 0).val / 2000 := rfl
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the region: one round's dense part of the arrays the region finds. -/
theorem final0 (c : Dev nD) : (dat0 V c).arrAt 6 cfg0.N = G0 V c :=
  (dat0 V c).arrAt_eq_of_cover 6 (G0 V c) (fun t _ => flushed0_eq V c t) (fun i => cover0 i)

end Cert.KernelGin

end
-- ==== Proof.KernelRegion1.lean ====
/-
  The second region's output array after the run: the read-out of one round's dense part of the arrays it finds.

  The layout is the first region's: grid point `t` loads rows `2000 t … 2000 t + 1999` of the two row-blocked
  operands and the whole of each weight, bias and read-out array, and writes the same rows of the 50000×1 output.
  The read-out of a round's dense part depends, entry by entry, on its own row only.
-/
import proofs.«106182_j37744172597911_1_alg».proof.Proof.KernelRegion0

set_option maxRecDepth 16384

noncomputable section

namespace Cert.KernelGin

open Cert.KernelIdeal Cert.KernelIdeal.Gen Idealize.ShloMosaic Idealize.ShloMosaic.TcCoe Idealize.SL.Sem
open Idealize.ShloMosaic.ValueIdx Cert.PlainDot Cert.Gin
open Idealize.ShloMosaic.Pipeline (Dat Cfg Window)

variable (V : (c : Dev nD) → (b : Ref sig .tc) → Buf (Elt Ideal) ((c : Thread nD τ).loc b))

/-- The row of the 50000-row arrays that row `p` of the block of grid point `t` is. -/
def rowOf1 (t : Fin cfg1.N) (p : Fin 2000) : Fin 50000 :=
  ⟨t.val * 2000 + p.val, by have h : cfg1.N = 25 := N_1; have := t.isLt; have := p.isLt; omega⟩

/-- The printed index maps over the grid: the row-blocked windows (0, 1 and the output 8) sit at block `(t, 0)`,
    every other window at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What the second region leaves in its output array, from the arrays it finds. -/
def G1 (c : Dev nD) : Mat 50000 1 :=
  readout (mlp (V c main_v18) (V c main_v28) (V c main_v29) (V c main_v31) (V c main_v30) (V c main_v32))
    (V c main_v33) (V c main_v34)

theorem readout_congr {M : Nat} {H H' : Mat M 128} {wr wr' : Mat 1 128} {br br' : Mat 1 1}
    (e0 : H = H') (e1 : wr = wr') (e2 : br = br') : readout H wr br = readout H' wr' br' := by
  subst e0 e1 e2; rfl

/-- The read-out of a round's dense part on picked rows is the picked rows of the same on the whole arrays. -/
theorem readout_mlp_rows {M M' : Nat} (e : Fin M' → Fin M) (h a : Mat M 128) (W1 : Mat 128 128) (b1 : Mat 1 128)
    (W2 : Mat 128 128) (b2 : Mat 1 128) (wr : Mat 1 128) (br : Mat 1 1) (p : Fin M') (q : Fin 1) :
    readout (mlp (pickRows e h) (pickRows e a) W1 b1 W2 b2) wr br (ix2 p q)
      = readout (mlp h a W1 b1 W2 b2) wr br (ix2 (e p) q) := rfl

/-- WHAT POINT `t` WRITES BACK is block `t` of `G1`. -/
theorem flushed1_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz, View.ld_unit_zero (S := S1x128) hz, View.ld_unit_zero (S := S1x1) hz]
  refine (congrArg ((win1 8).cut (grid1.coords t)) (body1_eq (iblk1 V c 0 t) (iblk1 V c 1 t) (iblk1 V c 2 t) (iblk1 V c 3 t) (iblk1 V c 4 t) (iblk1 V c 5 t) (iblk1 V c 6 t) (iblk1 V c 7 t))).trans ?_
  obtain ⟨e00, e01, e10, e11, e20, e21, e30, e31, e40, e41, e50, e51, e60, e61, e70, e71, e80, e81⟩ := idx_facts1 t
  -- the two row-blocked operands' blocks are the rows `rowOf1 t` picks
  have h0 : (iblk1 V c 0 t : Mat 2000 128) = pickRows (rowOf1 t) (V c main_v18) := by
    funext y
    show V c main_v18 (((cfg1.win 0).blk t).view.emb y) = V c main_v18 (ix2 (rowOf1 t ⟨(y 0).val, (y 0).isLt⟩) ⟨(y 1).val, (y 1).isLt⟩)
    refine congrArg _ (funext fun a => Fin.ext ?_)
    match a with
    | ⟨0, _⟩ => show win1_0.index t (0 : Fin 2) * 2000 + 1 * (y 0).val = t.val * 2000 + (y 0).val; omega
    | ⟨1, _⟩ => show win1_0.index t (1 : Fin 2) * 128 + 1 * (y 1).val = (y 1).val; omega
  have h1 : (iblk1 V c 1 t : Mat 2000 128) = pickRows (rowOf1 t) (V c main_v28) := by
    funext y
    show V c main_v28 (((cfg1.win 1).blk t).view.emb y) = V c main_v28 (ix2 (rowOf1 t ⟨(y 0).val, (y 0).isLt⟩) ⟨(y 1).val, (y 1).isLt⟩)
    refine congrArg _ (funext fun a => Fin.ext ?_)
    match a with
    | ⟨0, _⟩ => show win1_1.index t (0 : Fin 2) * 2000 + 1 * (y 0).val = t.val * 2000 + (y 0).val; omega
    | ⟨1, _⟩ => show win1_1.index t (1 : Fin 2) * 128 + 1 * (y 1).val = (y 1).val; omega
  -- every other operand's block is its whole array
  have h2 : (iblk1 V c 2 t : Mat 128 128) = V c main_v29 := by
    funext y
    show V c main_v29 (((cfg1.win 2).blk t).view.emb y) = V c main_v29 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : (iblk1 V c 3 t : Mat 1 128) = V c main_v31 := by
    funext y
    show V c main_v31 (((cfg1.win 3).blk t).view.emb y) = V c main_v31 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : (iblk1 V c 4 t : Mat 128 128) = V c main_v30 := by
    funext y
    show V c main_v30 (((cfg1.win 4).blk t).view.emb y) = V c main_v30 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : (iblk1 V c 5 t : Mat 1 128) = V c main_v32 := by
    funext y
    show V c main_v32 (((cfg1.win 5).blk t).view.emb y) = V c main_v32 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  have h6 : (iblk1 V c 6 t : Mat 1 128) = V c main_v33 := by
    funext y
    show V c main_v33 (((cfg1.win 6).blk t).view.emb y) = V c main_v33 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have h7 : (iblk1 V c 7 t : Mat 1 1) = V c main_v34 := by
    funext y
    show V c main_v34 (((cfg1.win 7).blk t).view.emb y) = V c main_v34 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 1 + 1 * (y 1).val = (y 1).val; omega
  refine (congrArg ((win1 8).cut (grid1.coords t)) (readout_congr (mlp_congr h0 h1 h2 h3 h4 h5) h6 h7)).trans ?_
  funext j
  have hp : (j 0).val < 2000 := Nat.lt_of_lt_of_le (j 0).isLt ((win1 8).xsize_le (grid1.coords t) 0)
  have hq : (j 1).val < 1 := Nat.lt_of_lt_of_le (j 1).isLt ((win1 8).xsize_le (grid1.coords t) 1)
  have hj : (win1 8).xinj (grid1.coords t) j = ix2 (⟨(j 0).val, hp⟩ : Fin 2000) (⟨(j 1).val, hq⟩ : Fin 1) :=
    funext fun a => Fin.ext (by
      match a with
      | ⟨0, _⟩ => rfl
      | ⟨1, _⟩ => rfl)
  have hemb : ((cfg1.win 8).blk t).view.emb j = ix2 (rowOf1 t ⟨(j 0).val, hp⟩) (⟨(j 1).val, hq⟩ : Fin 1) :=
    funext fun a => Fin.ext (by
      match a with
      | ⟨0, _⟩ => show win1_8.index t (0 : Fin 2) * 2000 + 1 * (j 0).val = t.val * 2000 + (j 0).val; omega
      | ⟨1, _⟩ => show win1_8.index t (1 : Fin 2) * 1 + 1 * (j 1).val = (j 1).val; omega)
  show readout (mlp (pickRows (rowOf1 t) (V c main_v18)) (pickRows (rowOf1 t) (V c main_v28)) (V c main_v29) (V c main_v31) (V c main_v30) (V c main_v32))
      (V c main_v33) (V c main_v34) ((win1 8).xinj (grid1.coords t) j) = G1 V c (((cfg1.win 8).blk t).view.emb j)
  rw [hj, hemb]
  exact readout_mlp_rows (rowOf1 t) _ _ _ _ _ _ _ _ _ _

/-- An index of the output array is in point `t`'s block iff each coordinate is in the block's range on its axis. -/
theorem mem_blk1 (t : Fin cfg1.N) (i : S50000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v35).slice (win1_8.rect t)).set ↔ _
  rw [View.set_slice_whole, Rect.mem_set_unit]
  exact Iff.rfl

/-- Every index of the output array is in the block of the point its row falls in. -/
theorem cover1 (i : S50000x1.Idx) : ∃ t : Fin cfg1.N, (cfg1.win 8).flush t = true ∧ i ∈ ((cfg1.win 8).blk t).view.set := by
  have hN : cfg1.N = 25 := N_1
  have hi0 : (i 0).val < 50000 := (i 0).isLt
  have hi1 : (i 1).val < 1 := (i 1).isLt
  let t : Fin cfg1.N := ⟨(i 0).val / 2000, by omega⟩
  obtain ⟨e00, e01, e10, e11, e20, e21, e30, e31, e40, e41, e50, e51, e60, e61, e70, e71, e80, e81⟩ := idx_facts1 t
  have ht : t.val = (i 0).val / 2000 := rfl
  refine ⟨t, flush1_8 t, ?_⟩
  rw [mem_blk1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 1 ≤ (i 1).val ∧ (i 1).val < win1_8.index t (1 : Fin 2) * 1 + 1; omega

/-- THE ARRAY after the region: the read-out of one round's dense part of the arrays the region finds. -/
theorem final1 (c : Dev nD) : (dat1 V c).arrAt 8 cfg1.N = G1 V c :=
  (dat1 V c).arrAt_eq_of_cover 8 (G1 V c) (fun t _ => flushed1_eq V c t) (fun i => cover1 i)

end Cert.KernelGin

end
-- ==== Proof.KernelValue.lean ====
/-
  The kernel's program from launch to return: what its result buffer holds, as the network of the launch contents.

  Before the first region the host gathers the feature rows at the edges' sources and scatter-adds them at the targets
  (`agg`), narrows the two weight matrices to a shorter float format (no change of value) and lays each bias out as
  a row.  The first region leaves one round's dense part of these (`final0`).  Between the regions the host computes
  the same neighbour sums of that array, prepares the second round's weights and biases the same way, and lays the
  read-out's weight column out as a row and its offset as a single cell.  The second region leaves the read-out of the
  second round (`final1`).  Read back to the launch contents, the result is `gin`.
-/
import proofs.«106182_j37744172597911_1_alg».proof.Proof.KernelRegion1
import proofs.«106182_j37744172597911_1_alg».proof.Proof.KernelRun
import Idealize.ShloMosaic.Lib.StableHlo.Run
import Idealize.ShloMosaic.Lib.ValueLayout

set_option maxRecDepth 16384

noncomputable section

namespace Cert.KernelGin

open Cert.KernelIdeal Cert.KernelIdeal.Gen Idealize.ShloMosaic Idealize.ShloMosaic.TcCoe Idealize.SL.Sem
open Idealize.ShloMosaic.ValueIdx Cert.PlainDot Cert.Gin

/-! ## The neighbour sums, as @main spells them -/

/-- The edge list's row 0 (the sources) as a flat array of 800000 node numbers. -/
def edgeRow0 (e : IVec S2x800000 32) : IVec S800000 32 :=
  shapeCast _ (extractStridedSlice S1x800000 ![0, 0] e slices_S2x800000_S1x800000_0_0) shapeCasts_S1x800000_S800000
/-- The edge list's row 1 (the targets). -/
def edgeRow1 (e : IVec S2x800000 32) : IVec S800000 32 :=
  shapeCast _ (extractStridedSlice S1x800000 ![1, 0] e slices_S2x800000_S1x800000_1_0) shapeCasts_S1x800000_S800000

/-- The rows of `h` gathered at the sources `s0` (a negative source counted from the end) and scatter-added, from
    zero, at the targets `s1`. -/
def aggAt (s0 s1 : IVec S800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 s1)
    (Host.gather gather_S50000x128_S800000x1_S800000x128_1_0_n_n_0_1_1128 h
      (broadcastInDim S800000x1 ![0] bcast_S800000_S800000x1_0
        (select (cmpi .slt s0 (broadcastInDim S800000 ![] bcast_S_S800000 (constantI S_ 32 0#32)))
          (addi s0 (broadcastInDim S800000 ![] bcast_S_S800000 (constantI S_ 32 50000#32)))
          s0)))

/-- The neighbour sums of a feature array `h` over the edge list `e`. -/
def agg (e : IVec S2x800000 32) (h : FVec Ideal S50000x128 .f32) : FVec Ideal S50000x128 .f32 :=
  aggAt (edgeRow0 e) (edgeRow1 e) h

theorem aggAt_congr {s0 s0' s1 s1' : IVec S800000 32} {h h' : FVec Ideal S50000x128 .f32}
    (e0 : s0 = s0') (e1 : s1 = s1') (e2 : h = h') : aggAt s0 s1 h = aggAt s0' s1' h' := by
  subst e0 e1 e2; rfl

/-! ## The host's re-layouts, read as the specification's -/

/-- A length-128 array recast as one row is `asRow`. -/
theorem reshape_row (b : FVec Ideal S128 .f32) :
    @Eq (Mat 1 128) (shapeCast S1x128 b shapeCasts_S128_S1x128) (asRow b) := by
  funext j
  obtain ⟨u, i, rfl⟩ : ∃ (u : Fin 1) (i : Fin 128), j = ix2 u i := ⟨j 0, j 1, eq_ix2 j⟩
  exact shapeCast_a_1a_apply b shapeCasts_S128_S1x128 u i

/-- A 128×1 column recast as one row is `colAsRow`: both orders list the same 128 entries. -/
theorem reshape_col (w : FVec Ideal S128x1 .f32) :
    @Eq (Mat 1 128) (shapeCast S1x128 w shapeCasts_S128x1_S1x128) (colAsRow w) := by
  funext j
  obtain ⟨u, i, rfl⟩ : ∃ (u : Fin 1) (i : Fin 128), j = ix2 u i := ⟨j 0, j 1, eq_ix2 j⟩
  exact shapeCast_apply w shapeCasts_S128x1_S1x128 (ix2 u i) (ix2 i (0 : Fin 1)) (by
    rw [Shape.rowMajor_val_two, Shape.rowMajor_val_two]
    show i.val * 1 + 0 = u.val * 128 + i.val
    have := u.isLt
    omega)

/-- A one-element array recast as a 1×1 array is `asCell`. -/
theorem reshape_cell (b : FVec Ideal S1 .f32) :
    @Eq (Mat 1 1) (shapeCast S1x1 b shapeCasts_S1_S1x1) (asCell b) := by
  funext j
  obtain ⟨u, i, rfl⟩ : ∃ (u : Fin 1) (i : Fin 1), j = ix2 u i := ⟨j 0, j 1, eq_ix2 j⟩
  exact (shapeCast_a_1a_apply b shapeCasts_S1_S1x1 u i).trans (congrArg (fun k => b (ix1 k)) (Subsingleton.elim i 0))

variable (m : (ℓ : Loc nD τ sig) → Buf (Elt Ideal) ℓ) (ρ : Dev nD → PrngReg)

/-! ## The first region's entry contents -/

theorem V1_arg0 (c : Dev nD) : @Eq (Mat 50000 128) (V1 m ρ c main_arg0) (m ((c.tc : Thread nD τ).loc main_arg0)) := by
  show StableHlo.after hostOps0 (W0 m ρ c) (Proc.devRef .tc main_arg0) = _
  after_results

theorem V1_v1 (c : Dev nD) : @Eq (IVec S800000 32) (V1 m ρ c main_v1) (edgeRow0 (m ((c.tc : Thread nD τ).loc main_arg1))) := by
  show StableHlo.after hostOps0 (W0 m ρ c) (Proc.devRef .tc main_v1) = _
  after_results
  rfl

theorem V1_v3 (c : Dev nD) : @Eq (IVec S800000 32) (V1 m ρ c main_v3) (edgeRow1 (m ((c.tc : Thread nD τ).loc main_arg1))) := by
  show StableHlo.after hostOps0 (W0 m ρ c) (Proc.devRef .tc main_v3) = _
  after_results
  rfl

theorem V1_v13 (c : Dev nD) : @Eq (Mat 50000 128) (V1 m ρ c main_v13)
    (agg (m ((c.tc : Thread nD τ).loc main_arg1)) (m ((c.tc : Thread nD τ).loc main_arg0))) := by
  show StableHlo.after hostOps0 (W0 m ρ c) (Proc.devRef .tc main_v13) = _
  after_results
  rfl

theorem V1_v14 (c : Dev nD) : @Eq (Mat 128 128) (V1 m ρ c main_v14) (m ((c.tc : Thread nD τ).loc main_arg2)) := by
  show StableHlo.after hostOps0 (W0 m ρ c) (Proc.devRef .tc main_v14) = _
  after_results
  rfl

theorem V1_v15 (c : Dev nD) : @Eq (Mat 128 128) (V1 m ρ c main_v15) (m ((c.tc : Thread nD τ).loc main_arg4)) := by
  show StableHlo.after hostOps0 (W0 m ρ c) (Proc.devRef .tc main_v15) = _
  after_results
  rfl

theorem V1_v16 (c : Dev nD) : @Eq (Mat 1 128) (V1 m ρ c main_v16) (asRow (m ((c.tc : Thread nD τ).loc main_arg3))) := by
  refine Eq.trans ?_ (reshape_row (m ((c.tc : Thread nD τ).loc main_arg3)))
  show StableHlo.after hostOps0 (W0 m ρ c) (Proc.devRef .tc main_v16) = _
  after_results
  rfl

theorem V1_v17 (c : Dev nD) : @Eq (Mat 1 128) (V1 m ρ c main_v17) (asRow (m ((c.tc : Thread nD τ).loc main_arg5))) := by
  refine Eq.trans ?_ (reshape_row (m ((c.tc : Thread nD τ).loc main_arg5)))
  show StableHlo.after hostOps0 (W0 m ρ c) (Proc.devRef .tc main_v17) = _
  after_results
  rfl

/-- The first round of the launch contents. -/
def round0 (c : Dev nD) : Mat 50000 128 :=
  mlp (m ((c.tc : Thread nD τ).loc main_arg0))
    (agg (m ((c.tc : Thread nD τ).loc main_arg1)) (m ((c.tc : Thread nD τ).loc main_arg0)))
    (m ((c.tc : Thread nD τ).loc main_arg2)) (asRow (m ((c.tc : Thread nD τ).loc main_arg3)))
    (m ((c.tc : Thread nD τ).loc main_arg4)) (asRow (m ((c.tc : Thread nD τ).loc main_arg5)))

/-- What the first region leaves is the first round of the launch contents. -/
theorem G0_eq (c : Dev nD) : G0 (V1 m ρ) c = round0 m c :=
  mlp_congr (V1_arg0 m ρ c) (V1_v13 m ρ c) (V1_v14 m ρ c) (V1_v16 m ρ c) (V1_v15 m ρ c) (V1_v17 m ρ c)

/-! ## Between the regions -/

/-- The re-layouts above, at an operand given up to equality. -/
theorem reshape_row_of {b b' : FVec Ideal S128 .f32} (e : b = b') :
    @Eq (Mat 1 128) (shapeCast S1x128 b shapeCasts_S128_S1x128) (asRow b') := e ▸ reshape_row b
theorem reshape_col_of {w w' : FVec Ideal S128x1 .f32} (e : w = w') :
    @Eq (Mat 1 128) (shapeCast S1x128 w shapeCasts_S128x1_S1x128) (colAsRow w') := e ▸ reshape_col w
theorem reshape_cell_of {b b' : FVec Ideal S1 .f32} (e : b = b') :
    @Eq (Mat 1 1) (shapeCast S1x1 b shapeCasts_S1_S1x1) (asCell b') := e ▸ reshape_cell b

/-- At the first region's exit the edge rows are what the first stretch left: no window of the region is over them. -/
theorem W2_v1 (c : Dev nD) : @Eq (IVec S800000 32) (W2 m ρ c (Proc.devRef .tc main_v1)) (edgeRow0 (m ((c.tc : Thread nD τ).loc main_arg1))) :=
  (W2_of_ne m ρ c main_v1 (by decide)).trans (V1_v1 m ρ c)
theorem W2_v3 (c : Dev nD) : @Eq (IVec S800000 32) (W2 m ρ c (Proc.devRef .tc main_v3)) (edgeRow1 (m ((c.tc : Thread nD τ).loc main_arg1))) :=
  (W2_of_ne m ρ c main_v3 (by decide)).trans (V1_v3 m ρ c)

/-- At the first region's exit its output array holds the first round of the launch contents. -/
theorem W2_v18 (c : Dev nD) : @Eq (Mat 50000 128) (W2 m ρ c (Proc.devRef .tc main_v18)) (round0 m c) :=
  (W2_arr m ρ c 6).trans ((final0 (V1 m ρ) c).trans (G0_eq m ρ c))

/-- The second round's parameters and the read-out's are still as launched at the first region's exit. -/
theorem W2_arg6 (c : Dev nD) : @Eq (FVec Ideal S128x128 .f32) (W2 m ρ c (Proc.devRef .tc main_arg6)) (m ((c.tc : Thread nD τ).loc main_arg6)) := by
  refine (W2_of_ne m ρ c main_arg6 (by decide)).trans ?_
  show StableHlo.after hostOps0 (W0 m ρ c) (Proc.devRef .tc main_arg6) = _
  after_results
theorem W2_arg7 (c : Dev nD) : @Eq (FVec Ideal S128 .f32) (W2 m ρ c (Proc.devRef .tc main_arg7)) (m ((c.tc : Thread nD τ).loc main_arg7)) := by
  refine (W2_of_ne m ρ c main_arg7 (by decide)).trans ?_
  show StableHlo.after hostOps0 (W0 m ρ c) (Proc.devRef .tc main_arg7) = _
  after_results
theorem W2_arg8 (c : Dev nD) : @Eq (FVec Ideal S128x128 .f32) (W2 m ρ c (Proc.devRef .tc main_arg8)) (m ((c.tc : Thread nD τ).loc main_arg8)) := by
  refine (W2_of_ne m ρ c main_arg8 (by decide)).trans ?_
  show StableHlo.after hostOps0 (W0 m ρ c) (Proc.devRef .tc main_arg8) = _
  after_results
theorem W2_arg9 (c : Dev nD) : @Eq (FVec Ideal S128 .f32) (W2 m ρ c (Proc.devRef .tc main_arg9)) (m ((c.tc : Thread nD τ).loc main_arg9)) := by
  refine (W2_of_ne m ρ c main_arg9 (by decide)).trans ?_
  show StableHlo.after hostOps0 (W0 m ρ c) (Proc.devRef .tc main_arg9) = _
  after_results
theorem W2_arg10 (c : Dev nD) : @Eq (FVec Ideal S128x1 .f32) (W2 m ρ c (Proc.devRef .tc main_arg10)) (m ((c.tc : Thread nD τ).loc main_arg10)) := by
  refine (W2_of_ne m ρ c main_arg10 (by decide)).trans ?_
  show StableHlo.after hostOps0 (W0 m ρ c) (Proc.devRef .tc main_arg10) = _
  after_results
theorem W2_arg11 (c : Dev nD) : @Eq (FVec Ideal S1 .f32) (W2 m ρ c (Proc.devRef .tc main_arg11)) (m ((c.tc : Thread nD τ).loc main_arg11)) := by
  refine (W2_of_ne m ρ c main_arg11 (by decide)).trans ?_
  show StableHlo.after hostOps0 (W0 m ρ c) (Proc.devRef .tc main_arg11) = _
  after_results

/-! ## The second region's entry contents -/

theorem V3_v18 (c : Dev nD) : @Eq (Mat 50000 128) (V3 m ρ c main_v18) (round0 m c) := by
  refine Eq.trans ?_ (W2_v18 m ρ c)
  show StableHlo.after hostOps1 (W2 m ρ c) (Proc.devRef .tc main_v18) = _
  after_results

theorem V3_v28 (c : Dev nD) : @Eq (Mat 50000 128) (V3 m ρ c main_v28) (agg (m ((c.tc : Thread nD τ).loc main_arg1)) (round0 m c)) := by
  refine Eq.trans ?_ (aggAt_congr (W2_v1 m ρ c) (W2_v3 m ρ c) (W2_v18 m ρ c))
  show StableHlo.after hostOps1 (W2 m ρ c) (Proc.devRef .tc main_v28) = _
  after_results
  all_goals rfl

theorem V3_v29 (c : Dev nD) : @Eq (Mat 128 128) (V3 m ρ c main_v29) (m ((c.tc : Thread nD τ).loc main_arg6)) := by
  refine Eq.trans ?_ (W2_arg6 m ρ c)
  show StableHlo.after hostOps1 (W2 m ρ c) (Proc.devRef .tc main_v29) = _
  after_results
  all_goals rfl

theorem V3_v30 (c : Dev nD) : @Eq (Mat 128 128) (V3 m ρ c main_v30) (m ((c.tc : Thread nD τ).loc main_arg8)) := by
  refine Eq.trans ?_ (W2_arg8 m ρ c)
  show StableHlo.after hostOps1 (W2 m ρ c) (Proc.devRef .tc main_v30) = _
  after_results
  all_goals rfl

theorem V3_v31 (c : Dev nD) : @Eq (Mat 1 128) (V3 m ρ c main_v31) (asRow (m ((c.tc : Thread nD τ).loc main_arg7))) := by
  refine Eq.trans ?_ (reshape_row_of (W2_arg7 m ρ c))
  show StableHlo.after hostOps1 (W2 m ρ c) (Proc.devRef .tc main_v31) = _
  after_results
  all_goals rfl

theorem V3_v32 (c : Dev nD) : @Eq (Mat 1 128) (V3 m ρ c main_v32) (asRow (m ((c.tc : Thread nD τ).loc main_arg9))) := by
  refine Eq.trans ?_ (reshape_row_of (W2_arg9 m ρ c))
  show StableHlo.after hostOps1 (W2 m ρ c) (Proc.devRef .tc main_v32) = _
  after_results
  all_goals rfl

theorem V3_v33 (c : Dev nD) : @Eq (Mat 1 128) (V3 m ρ c main_v33) (colAsRow (m ((c.tc : Thread nD τ).loc main_arg10))) := by
  refine Eq.trans ?_ (reshape_col_of (W2_arg10 m ρ c))
  show StableHlo.after hostOps1 (W2 m ρ c) (Proc.devRef .tc main_v33) = _
  after_results
  all_goals rfl

theorem V3_v34 (c : Dev nD) : @Eq (Mat 1 1) (V3 m ρ c main_v34) (asCell (m ((c.tc : Thread nD τ).loc main_arg11))) := by
  refine Eq.trans ?_ (reshape_cell_of (W2_arg11 m ρ c))
  show StableHlo.after hostOps1 (W2 m ρ c) (Proc.devRef .tc main_v34) = _
  after_results
  all_goals rfl

/-! ## The result -/

/-- What the second region leaves is the network of the launch contents. -/
theorem G1_eq (c : Dev nD) : G1 (V3 m ρ) c = gin (agg (m ((c.tc : Thread nD τ).loc main_arg1))) (m ((c.tc : Thread nD τ).loc main_arg0))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) :=
  (readout_congr (mlp_congr (V3_v18 m ρ c) (V3_v28 m ρ c) (V3_v29 m ρ c) (V3_v31 m ρ c) (V3_v30 m ρ c) (V3_v32 m ρ c))
    (V3_v33 m ρ c) (V3_v34 m ρ c)).trans rfl

/-- The result buffer at the last boundary holds the network of the launch contents. -/
theorem result_eq (c : Dev nD) : @Eq (Mat 50000 1) (W4 m ρ c (Proc.devRef .tc main_v35)) (gin (agg (m ((c.tc : Thread nD τ).loc main_arg1))) (m ((c.tc : Thread nD τ).loc main_arg0))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11))) :=
  (W4_arr m ρ c 8).trans ((final1 (V3 m ρ) c).trans (G1_eq m ρ c))

/-- THE KERNEL'S RUN, READ: every weakly fair execution terminates, nothing faulting, with the result buffer at the
    network of the launch contents and the argument arrays unchanged. -/
theorem run : θ_run (defs (F := Ideal)) (onTc (τ := τ) (main (F := Ideal))) ⟨m, fun _ => 0, ρ⟩ (fun r => ∀ c : Dev nD,
      r.2.mem ((c.tc : Thread nD τ).loc main_v35) = gin (agg (m ((c.tc : Thread nD τ).loc main_arg1))) (m ((c.tc : Thread nD τ).loc main_arg0))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (Cert.KernelIdeal.Gen.Named.run m ρ)

end Cert.KernelGin

end
-- ==== Proof.RefValue.lean ====
/-
  The reference's result, read as the network `Cert.Gin.gin` of its argument arrays.
-/
import proofs.«106182_j37744172597911_1_alg».proof.Proof.Gen.ReferenceIdeal.Run
import proofs.«106182_j37744172597911_1_alg».proof.Proof.Gen.ReferenceIdeal.Read
import proofs.«106182_j37744172597911_1_alg».proof.Proof.Spec

noncomputable section

namespace Cert.RefGin

open Cert.ReferenceIdeal Cert.ReferenceIdeal.Gen Idealize.ShloMosaic Idealize.ShloMosaic.TcCoe Idealize.SL.Sem
open Idealize.ShloMosaic.ValueIdx Cert.PlainDot Cert.Gin

/-- The edge list's row `r` (0: sources, 1: targets) as a flat array of 800000 node numbers. -/
def edgeRow0 (e : IVec S2x800000 32) : IVec S800000 32 :=
  shapeCast _ (extractStridedSlice S1x800000 ![0, 0] e slices_S2x800000_S1x800000_0_0) shapeCasts_S1x800000_S800000
def edgeRow1 (e : IVec S2x800000 32) : IVec S800000 32 :=
  shapeCast _ (extractStridedSlice S1x800000 ![1, 0] e slices_S2x800000_S1x800000_1_0) shapeCasts_S1x800000_S800000

/-- The neighbour sums as the reference's @main computes them from the edge list `e` and a feature array `h`:
    the rows of `h` gathered at the sources (a negative source counted from the end) and scatter-added, from zero,
    at the targets. -/
def agg (e : IVec S2x800000 32) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (edgeRow1 e))
    (Host.gather gather_S50000x128_S800000x1_S800000x128_1_0_n_n_0_1_1128 h
      (broadcastInDim S800000x1 ![0] bcast_S800000_S800000x1_0
        (select (cmpi .slt (edgeRow0 e) (broadcastInDim S800000 ![] bcast_S_S800000 (constantI S_ 32 0#32)))
          (addi (edgeRow0 e) (broadcastInDim S800000 ![] bcast_S_S800000 (constantI S_ 32 50000#32)))
          (edgeRow0 e))))

/-- The two products' records are the plain ones: rows by inner against inner by columns, no batch axis. -/
theorem dot128_plain : dot_S50000x128_S128x128_S50000x128_1_0_0_1_n_n = DotDims.plain 50000 128 128 := rfl
theorem dot1_plain : dot_S50000x128_S128x1_S50000x1_1_0_0_1_n_n = DotDims.plain 50000 128 1 := rfl

/-- The splat of the zero word, at every index, is the value of the zero word. -/
theorem zeros_apply (j : S50000x128.Idx) :
    broadcastInDim S50000x128 ![] bcast_S_S50000x128 (constant (F := Ideal) S_ .f32 0x00000000#32) j
      = Ideal.ofBits .f32 0x00000000#32 :=
  broadcastInDim_apply _ bcast_S_S50000x128 (constant (F := Ideal) S_ .f32 0x00000000#32) j (fun a => a.elim0)
    (fun a => a.elim0)

/-- A length-128 array made a one-row array and then copied to every one of 50000 rows reads, at (p, q), its
    entry q. -/
theorem biasRows_apply (b : FVec Ideal S128 .f32) (p : Fin 50000) (q : Fin 128) :
    broadcastInDim S50000x128 ![0, 1] bcast_S1x128_S50000x128_0_1
        (broadcastInDim S1x128 ![1] bcast_S128_S1x128_1 b) (ix2 p q) = b (ix1 q) := by
  refine (broadcastInDim_apply _ bcast_S1x128_S50000x128_0_1 (broadcastInDim S1x128 ![1] bcast_S128_S1x128_1 b)
    (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- One half of a round as the reference spells it, as a whole array: the product with the weights, the bias copied
    to every row added, the maximum with the zero splat taken, is the product with a row added, clipped at zero. -/
theorem layer_eq (A : FVec Ideal S50000x128 .f32) (W : FVec Ideal S128x128 .f32) (b : FVec Ideal S128 .f32) :
    maximumf (addf (Host.dotGeneral dot_S50000x128_S128x128_S50000x128_1_0_0_1_n_n none A W)
        (broadcastInDim S50000x128 ![0, 1] bcast_S1x128_S50000x128_0_1
          (broadcastInDim S1x128 ![1] bcast_S128_S1x128_1 b)))
      (broadcastInDim S50000x128 ![] bcast_S_S50000x128 (constant (F := Ideal) S_ .f32 0x00000000#32))
    = affineRelu A W (asRow b) := by
  funext j
  obtain ⟨p, q, rfl⟩ : ∃ (p : Fin 50000) (q : Fin 128), j = ix2 p q := ⟨j 0, j 1, eq_ix2 j⟩
  have hd : Host.dotGeneral dot_S50000x128_S128x128_S50000x128_1_0_0_1_n_n none A W (ix2 p q)
      = ∑ k : Fin 128, A (ix2 p k) * W (ix2 k q) :=
    Cert.PlainDot.dotGeneral_apply (M := 50000) (K := 128) (N := 128) none _ A W (ix2 p q)
  exact (congrArg₂ FloatOps.maximumf (congrArg₂ FloatOps.addf hd (biasRows_apply b p q)) (zeros_apply (ix2 p q))).trans rfl

/-- The bias of the read-out, a one-element array made a one-by-one array and then copied to every one of 50000
    rows, reads its one entry everywhere. -/
theorem offsetRows_apply (c : FVec Ideal S1 .f32) (p : Fin 50000) (q : Fin 1) :
    broadcastInDim S50000x1 ![0, 1] bcast_S1x1_S50000x1_0_1
        (broadcastInDim S1x1 ![1] bcast_S1_S1x1_1 c) (ix2 p q) = c (ix1 (0 : Fin 1)) := by
  refine (broadcastInDim_apply _ bcast_S1x1_S50000x1_0_1 (broadcastInDim S1x1 ![1] bcast_S1_S1x1_1 c)
    (ix2 p q) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else q.val; rw [if_pos rfl])).trans ?_
  exact broadcastInDim_apply _ bcast_S1_S1x1_1 c (ix2 (0 : Fin 1) (0 : Fin 1)) (ix1 (0 : Fin 1)) (fun a => match a with
    | ⟨0, _⟩ => by show 0 = if (1 : Nat) = 1 then 0 else (0 : Fin 1).val; rw [if_pos rfl])

/-- The first round's neighbour sums: the reference's first gather and scatter-add, with the index arithmetic
    before them, are the neighbour sums of the input features. -/
theorem v13_eq (x0 : FVec Ideal S50000x128 .f32) (x1 : IVec S2x800000 32) :
    Read.val_main_v13 (F := Ideal) x0 x1 = agg x1 x0 := by
  unfold Read.val_main_v13 Read.val_main_v12 Read.val_main_v11 Read.val_main_v10 Read.val_main_v9 Read.val_main_v8
    Read.val_main_v7 Read.val_main_v6 Read.val_main_v5 Read.val_main_v4 Read.val_main_v3 Read.val_main_v2
    Read.val_main_v1 Read.val_main_v0 Read.val_main_c Read.val_main_c_0 Read.val_main_cst agg edgeRow0 edgeRow1
  rfl

/-- The features plus their neighbour sums, entry by entry. -/
theorem v14_eq (x0 : FVec Ideal S50000x128 .f32) (x1 : IVec S2x800000 32) :
    Read.val_main_v14 (F := Ideal) x0 x1 = fun j => x0 j + agg x1 x0 j := by
  unfold Read.val_main_v14
  rw [v13_eq]
  rfl

/-- The first round. -/
theorem v24_eq (x0 : FVec Ideal S50000x128 .f32) (x1 : IVec S2x800000 32) (x2 : FVec Ideal S128x128 .f32)
    (x3 : FVec Ideal S128 .f32) (x4 : FVec Ideal S128x128 .f32) (x5 : FVec Ideal S128 .f32) :
    Read.val_main_v24 (F := Ideal) x0 x1 x2 x3 x4 x5 = mlp x0 (agg x1 x0) x2 (asRow x3) x4 (asRow x5) := by
  have h19 : Read.val_main_v19 (F := Ideal) x0 x1 x2 x3 = affineRelu (fun j => x0 j + agg x1 x0 j) x2 (asRow x3) := by
    unfold Read.val_main_v19 Read.val_main_v18 Read.val_main_v17 Read.val_main_v16 Read.val_main_v15
      Read.val_main_call0_v0 Read.val_main_call0_cst
    rw [v14_eq]
    exact layer_eq _ x2 x3
  unfold Read.val_main_v24 Read.val_main_v23 Read.val_main_v22 Read.val_main_v21 Read.val_main_v20
    Read.val_main_call1_v0 Read.val_main_call1_cst
  rw [h19]
  exact layer_eq _ x4 x5

/-- The second round's neighbour sums: the reference's second gather and scatter-add, with the index arithmetic
    spelt again before them, are the neighbour sums of the first round's output. -/
theorem v34_eq (x0 : FVec Ideal S50000x128 .f32) (x1 : IVec S2x800000 32) (x2 : FVec Ideal S128x128 .f32)
    (x3 : FVec Ideal S128 .f32) (x4 : FVec Ideal S128x128 .f32) (x5 : FVec Ideal S128 .f32) :
    Read.val_main_v34 (F := Ideal) x0 x1 x2 x3 x4 x5
      = agg x1 (Read.val_main_v24 (F := Ideal) x0 x1 x2 x3 x4 x5) := by
  unfold Read.val_main_v34 Read.val_main_v33 Read.val_main_v32 Read.val_main_v31 Read.val_main_v30 Read.val_main_v29
    Read.val_main_v28 Read.val_main_v27 Read.val_main_v26 Read.val_main_v25 Read.val_main_v3 Read.val_main_v2
    Read.val_main_v1 Read.val_main_v0 Read.val_main_c_1 Read.val_main_c_2 Read.val_main_cst_3 agg edgeRow0 edgeRow1
  rfl

/-- The first round's output plus its neighbour sums, entry by entry. -/
theorem v35_eq (x0 : FVec Ideal S50000x128 .f32) (x1 : IVec S2x800000 32) (x2 : FVec Ideal S128x128 .f32)
    (x3 : FVec Ideal S128 .f32) (x4 : FVec Ideal S128x128 .f32) (x5 : FVec Ideal S128 .f32) :
    Read.val_main_v35 (F := Ideal) x0 x1 x2 x3 x4 x5
      = fun j => Read.val_main_v24 (F := Ideal) x0 x1 x2 x3 x4 x5 j
          + agg x1 (Read.val_main_v24 (F := Ideal) x0 x1 x2 x3 x4 x5) j := by
  unfold Read.val_main_v35
  rw [v34_eq]
  rfl

/-- The second round, on the first round's output. -/
theorem v45_eq (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) :
    Read.val_main_v45 (F := Ideal) x0 x1 x2 x3 x4 x5 x6 x7 x8 x9
      = mlp (Read.val_main_v24 (F := Ideal) x0 x1 x2 x3 x4 x5)
          (agg x1 (Read.val_main_v24 (F := Ideal) x0 x1 x2 x3 x4 x5)) x6 (asRow x7) x8 (asRow x9) := by
  have h40 : Read.val_main_v40 (F := Ideal) x0 x1 x2 x3 x4 x5 x6 x7
      = affineRelu (fun j => Read.val_main_v24 (F := Ideal) x0 x1 x2 x3 x4 x5 j
          + agg x1 (Read.val_main_v24 (F := Ideal) x0 x1 x2 x3 x4 x5) j) x6 (asRow x7) := by
    unfold Read.val_main_v40 Read.val_main_v39 Read.val_main_v38 Read.val_main_v37 Read.val_main_v36
      Read.val_main_call2_v0 Read.val_main_call2_cst
    rw [v35_eq]
    exact layer_eq _ x6 x7
  unfold Read.val_main_v45 Read.val_main_v44 Read.val_main_v43 Read.val_main_v42 Read.val_main_v41
    Read.val_main_call3_v0 Read.val_main_call3_cst
  rw [h40]
  exact layer_eq _ x8 x9

/-- The read-out as the reference spells it, as a whole array: the product with the one weight column, the offset
    copied to every row added. -/
theorem head_eq (H : FVec Ideal S50000x128 .f32) (w : FVec Ideal S128x1 .f32) (c : FVec Ideal S1 .f32) :
    addf (Host.dotGeneral dot_S50000x128_S128x1_S50000x1_1_0_0_1_n_n none H w)
        (broadcastInDim S50000x1 ![0, 1] bcast_S1x1_S50000x1_0_1 (broadcastInDim S1x1 ![1] bcast_S1_S1x1_1 c))
      = readout H (colAsRow w) (asCell c) := by
  funext j
  obtain ⟨p, q, rfl⟩ : ∃ (p : Fin 50000) (q : Fin 1), j = ix2 p q := ⟨j 0, j 1, eq_ix2 j⟩
  obtain rfl : q = 0 := Fin.fin_one_eq_zero q
  have hd : Host.dotGeneral dot_S50000x128_S128x1_S50000x1_1_0_0_1_n_n none H w (ix2 p (0 : Fin 1))
      = ∑ k : Fin 128, H (ix2 p k) * w (ix2 k (0 : Fin 1)) :=
    Cert.PlainDot.dotGeneral_apply (M := 50000) (K := 128) (N := 1) none _ H w (ix2 p (0 : Fin 1))
  exact (congrArg₂ FloatOps.addf hd (offsetRows_apply c p 0)).trans rfl

/-- The reference's last stage is the read-out of the second round's output. -/
theorem v49_eq (x0 : FVec Ideal S50000x128 .f32) (x1 : IVec S2x800000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) (x10 : FVec Ideal S128x1 .f32) (x11 : FVec Ideal S1 .f32) :
    Read.val_main_v49 (F := Ideal) x0 x1 x2 x3 x4 x5 x6 x7 x8 x9 x10 x11
      = readout (Read.val_main_v45 (F := Ideal) x0 x1 x2 x3 x4 x5 x6 x7 x8 x9) (colAsRow x10) (asCell x11) := by
  unfold Read.val_main_v49 Read.val_main_v48 Read.val_main_v47 Read.val_main_v46
  exact head_eq _ x10 x11

/-- THE INTERFACE: the term the reference's run ends with is the network of the launch contents of its arguments. -/
theorem result_eq (m : (ℓ : Loc nD τ sig) → Buf (Elt Ideal) ℓ) (c : Dev nD) :
    Cert.ReferenceIdeal.Value.res_main_v49 (F := Ideal) m c
      = gin (agg (m ((c.tc : Thread nD τ).loc main_arg1))) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  refine (Read.val_main_v49_eq (F := Ideal) m c).trans ?_
  refine (v49_eq _ _ _ _ _ _ _ _ _ _ _ _).trans ?_
  refine (congrArg (fun H => readout H _ _) (v45_eq _ _ _ _ _ _ _ _ _ _)).trans ?_
  refine (congrArg (fun H => readout (mlp H (agg _ H) _ _ _ _) _ _) (v24_eq _ _ _ _ _ _)).trans ?_
  rfl

end Cert.RefGin

end
-- ==== Proof.lean ====
/-
  The certificate of a two-round graph-isomorphism network with a linear read-out on 50000 nodes and 800000 edges:
  the kernel's program against its plain reference, over the extended reals.

  Both programs compute, for each round, the neighbour sums of the node features by one gather at the edges' sources
  and one scatter-add at their targets, spelt with the same operations, and then
  `max (max ((h + a) · W1 + b1) 0 · W2 + b2) 0`; after the second round both contract each node's 128 features with
  the read-out weights and add the offset.  The kernel's program does the dense part of each round in a region of 25
  grid points over blocks of 2000 rows, with the operands of each matrix product narrowed to a shorter float format
  (at the extended reals a change of format changes no value) and each product taken into a zero accumulator; its
  read-out is a lane sum of an entrywise product where the reference takes a 128×1 matrix product.  Each of these is
  the same sum of the same products, so both results are the one function `Cert.Gin.gin` of the argument arrays:
  the kernel's by `Cert.KernelGin.run` (the frame run with the result named, each region's output array read as a
  whole-array function of what the region finds, the host stretches read back to the launch contents), the
  reference's by `Cert.RefGin.result_eq` over its run.  No law used needs a finite operand: the precondition is not
  opened.  The idealization rewrote no operation, so that conjunct is trivial; the three frames are the programs'
  runs with the result dropped.
-/
import proofs.«106182_j37744172597911_1_alg».proof.Defs
import proofs.«106182_j37744172597911_1_alg».proof.Proof.Gen.Kernel
import proofs.«106182_j37744172597911_1_alg».proof.Proof.Gen.Kernel.Skeleton
import proofs.«106182_j37744172597911_1_alg».proof.Proof.Gen.Kernel.Launch
import proofs.«106182_j37744172597911_1_alg».proof.Proof.Gen.Kernel.Points
import proofs.«106182_j37744172597911_1_alg».proof.Proof.Gen.Kernel.Frame
import proofs.«106182_j37744172597911_1_alg».proof.Proof.Gen.KernelIdeal
import proofs.«106182_j37744172597911_1_alg».proof.Proof.Gen.KernelIdeal.Skeleton
import proofs.«106182_j37744172597911_1_alg».proof.Proof.Gen.KernelIdeal.Launch
import proofs.«106182_j37744172597911_1_alg».proof.Proof.Gen.KernelIdeal.Points
import proofs.«106182_j37744172597911_1_alg».proof.Proof.Gen.KernelIdeal.Frame
import proofs.«106182_j37744172597911_1_alg».proof.Proof.Gen.ReferenceIdeal
import proofs.«106182_j37744172597911_1_alg».proof.Proof.Gen.Pre_finite_inputs
import proofs.«106182_j37744172597911_1_alg».proof.Proof.KernelValue
import proofs.«106182_j37744172597911_1_alg».proof.Proof.RefValue
import Idealize.ShloMosaic.Adequacy
import Idealize.ShloMosaic.Init

noncomputable section

namespace Cert.Proof

open Idealize.ShloMosaic Idealize.SL.Sem

/-- The two programs spell the neighbour sums with the same operations over the same shapes. -/
theorem agg_eq (e : IVec Cert.KernelIdeal.S2x800000 32) : Cert.RefGin.agg e = Cert.KernelGin.agg e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨_, Cert.KernelGin.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.RefGin.result_eq, h0, h1, h2, h3, h4, h5, h6, h7, h8, h9, h10, h11, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
